-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x1600000 : Shape := ⟨2, ![1, 1600000]⟩
abbrev S1600000 : Shape := ⟨1, ![1600000]⟩
abbrev S100000x16 : Shape := ⟨2, ![100000, 16]⟩
abbrev S5000x512 : Shape := ⟨2, ![5000, 512]⟩
abbrev S5000x16 : Shape := ⟨2, ![5000, 16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S100000x7 : Shape := ⟨2, ![100000, 7]⟩
abbrev S5000x7 : Shape := ⟨2, ![5000, 7]⟩
abbrev S1700000x7 : Shape := ⟨2, ![1700000, 7]⟩
abbrev S1x7 : Shape := ⟨2, ![1, 7]⟩

abbrev nBuf : Space → Nat
  | .hbm => 125
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x16, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x7, .f32⟩
  | .hbm, ⟨115, _⟩ => ⟨S1700000x1, .f32⟩
  | .hbm, ⟨116, _⟩ => ⟨S1700000x7, .f32⟩
  | .hbm, ⟨117, _⟩ => ⟨S1700000x7, .f32⟩
  | .hbm, ⟨118, _⟩ => ⟨S_, .f32⟩
  | .hbm, ⟨119, _⟩ => ⟨S100000x7, .f32⟩
  | .hbm, ⟨120, _⟩ => ⟨S1700000x1, .i32⟩
  | .hbm, ⟨121, _⟩ => ⟨S100000x7, .f32⟩
  | .hbm, ⟨122, _⟩ => ⟨S1x7, .f32⟩
  | .hbm, ⟨123, _⟩ => ⟨S100000x7, .f32⟩
  | .hbm, ⟨124, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x7, .f32⟩
  | .local _ .vmem, ⟨8, _⟩ => ⟨S5000x7, .f32⟩
  | .local _ .vmem, ⟨9, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S5000x512_S512x16_S5000x16_1_0_0_1_n_n_wf : DotDims.WF S5000x512 S512x16 S5000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x16_S16x7_S5000x7_1_0_0_1_n_n_wf : DotDims.WF S5000x16 S16x7 S5000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x1600000 : Shape := ⟨2, ![1, 1600000]⟩
abbrev S1600000 : Shape := ⟨1, ![1600000]⟩
abbrev S100000x16 : Shape := ⟨2, ![100000, 16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S100000x7 : Shape := ⟨2, ![100000, 7]⟩
abbrev S1700000x7 : Shape := ⟨2, ![1700000, 7]⟩
abbrev S1x7 : Shape := ⟨2, ![1, 7]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x16, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x7, .f32⟩
  | .hbm, ⟨115, _⟩ => ⟨S1700000x1, .f32⟩
  | .hbm, ⟨116, _⟩ => ⟨S1700000x7, .f32⟩
  | .hbm, ⟨117, _⟩ => ⟨S1700000x7, .f32⟩
  | .hbm, ⟨118, _⟩ => ⟨S_, .f32⟩
  | .hbm, ⟨119, _⟩ => ⟨S100000x7, .f32⟩
  | .hbm, ⟨120, _⟩ => ⟨S1700000x1, .i32⟩
  | .hbm, ⟨121, _⟩ => ⟨S100000x7, .f32⟩
  | .hbm, ⟨122, _⟩ => ⟨S1x7, .f32⟩
  | .hbm, ⟨123, _⟩ => ⟨S100000x7, .f32⟩
  | .hbm, ⟨124, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x7_S100000x7_1_0_0_1_n_n_wf : DotDims.WF S100000x16 S16x7 S100000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

class Facts : Prop extends Facts₀ where

variable [Facts]
-- ==== Proof.RefResult.lean ====
/-
  The reference's result as the run of its operation list: the composed term the reference's run states for its result
  buffer is what the buffer holds after the 119 operations, in order, from the launch contents.
-/
import proofs.«101474_j80625126080586_1_alg».proof.Proof.ReferenceRun

noncomputable section

namespace Cert.ReferenceIdeal.Result

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 47600000 in
/-- Each operation's result at its own buffer is its function of its operands' contents, and at any other buffer what
    was there: folded through the list this is the composed term. -/
theorem res_eq_after (m : (ℓ : Loc nD τ sig) → Buf (Elt F) ℓ) (c : Dev nD) :
    res_main_v90 (F := F) m c = after (ops (F := F)) (launchContents m c) (Proc.devRef .tc main_v90) :=
  Eq.symm (by after_results_simp <;> rfl <;> (unfold res_main_v90; rfl))

end Cert.ReferenceIdeal.Result

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.LibDotPlain.lean ====
/-
  A plain matrix product on the host read at an index. For dimension numbers that contract axis 1 of an [M, K] left
  operand with axis 0 of a [K, N] right operand (no batch axes), a `dot_general` over the extended reals has at (p, q)
  the sum over k of left (p, k) times right (k, q), whatever the precision and the schedule key.
-/
import proofs.«101474_j80625126080586_1_alg».proof.Proof.LibMatmulPlain

noncomputable section

namespace Cert.LibDotPlain

open Idealize.ShloMosaic Idealize.ShloMosaic.ValueIdx Cert.LibMatmulPlain

variable {M K N : Nat}
variable (wf : DotDims.WF (⟨2, ![M, K]⟩ : Shape) ⟨2, ![K, N]⟩ ⟨2, ![M, N]⟩ [1] [0] [0] [1] [] [])

/-- THE HOST PRODUCT AT (p, q): the sum over the contracted coordinate. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (plainDims wf) prec sched lhs rhs (ix2 p q)
      = ∑ k : Fin K, lhs (ix2 p k) * rhs (ix2 k q) := by
  rw [Ideal.dotGeneral_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibDotPlain

end
-- ==== Proof.LibRowProduct.lean ====
/-
  The product of an [M, K] matrix with a [K, N] matrix over the extended reals, as one function of the two
  matrices: entry (p, q) is the sum over k of x (p, k) * w (k, q). A matrix-unit product into the zero accumulator
  and a host dot_general, each contracting axis 1 of the left operand with axis 0 of the right one, are both this
  function; a sum over a finite type in a commutative monoid needs no order, so nothing here asks the entries to be
  finite. A row tile of the product is the product of the row tile with the right operand (`prod_tile`), which is what a
  kernel that walks the rows of the left operand in tiles computes.
-/
import proofs.«101474_j80625126080586_1_alg».proof.Proof.LibMatmulPlain
import proofs.«101474_j80625126080586_1_alg».proof.Proof.LibDotPlain

noncomputable section

namespace Cert.LibRowProduct

open Idealize.ShloMosaic Idealize.ShloMosaic.ValueIdx Cert.LibMatmulPlain Cert.LibDotPlain

variable {M K N : Nat}

/-- The matrix product, entry by entry. -/
def prod (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem prod_apply (x : FVec Ideal ⟨2, ![M, K]⟩ .f32) (w : FVec Ideal ⟨2, ![K, N]⟩ .f32) (p : Fin M) (q : Fin N) :
    prod x w (ix2 p q) = ∑ k : Fin K, x (ix2 p k) * w (ix2 k q) := rfl

/-! ## A row tile of a product -/

/-- If a block x0 holds the rows r p of X, a block x1 holds all of W, and e sends (p, q) to (r p, q), then the product of
    the blocks is the product of the arrays read through e: row p of a product depends on row p of the left operand alone. -/
theorem prod_tile {M K N R : Nat} (X : FVec Ideal ⟨2, ![M, K]⟩ .f32) (W : FVec Ideal ⟨2, ![K, N]⟩ .f32)
    (x0 : FVec Ideal ⟨2, ![R, K]⟩ .f32) (x1 : FVec Ideal ⟨2, ![K, N]⟩ .f32)
    (e : (⟨2, ![R, N]⟩ : Shape).Idx → (⟨2, ![M, N]⟩ : Shape).Idx) (r : Fin R → Fin M)
    (h0 : ∀ p k, x0 (ix2 p k) = X (ix2 (r p) k)) (h1 : ∀ k q, x1 (ix2 k q) = W (ix2 k q))
    (he : ∀ p q, e (ix2 p q) = ix2 (r p) q) :
    prod x0 x1 = fun j => prod X W (e j) := by
  funext j
  obtain ⟨p, q, rfl⟩ : ∃ (p : Fin R) (q : Fin N), j = ix2 p q := ⟨j 0, j 1, eq_ix2 j⟩
  rw [prod_apply, he, prod_apply]
  exact Finset.sum_congr rfl fun k _ => by rw [h0, h1]

variable (wf : DotDims.WF (⟨2, ![M, K]⟩ : Shape) ⟨2, ![K, N]⟩ ⟨2, ![M, N]⟩ [1] [0] [0] [1] [] [])

/-- A matrix-unit product into the zero accumulator is the matrix product. -/
theorem matmul_zero_eq_prod (x : FVec Ideal ⟨2, ![M, K]⟩ .f32) (w : FVec Ideal ⟨2, ![K, N]⟩ .f32) :
    matmul (plainDims wf) none x w (constant ⟨2, ![M, N]⟩ .f32 0x00000000#32) = prod x w := by
  funext j
  obtain ⟨p, q, rfl⟩ : ∃ (p : Fin M) (q : Fin N), j = ix2 p q := ⟨j 0, j 1, eq_ix2 j⟩
  exact matmul_zero_plain_apply wf none x w p q

/-- A host dot_general is the matrix product. -/
theorem dotGeneral_eq_prod (x : FVec Ideal ⟨2, ![M, K]⟩ .f32) (w : FVec Ideal ⟨2, ![K, N]⟩ .f32) :
    Host.dotGeneral (plainDims wf) none x w = prod x w := by
  funext j
  obtain ⟨p, q, rfl⟩ : ∃ (p : Fin M) (q : Fin N), j = ix2 p q := ⟨j 0, j 1, eq_ix2 j⟩
  exact dotGeneral_plain_apply wf none .single x w p q

end Cert.LibRowProduct

end
-- ==== Proof.Tiles.lean ====
/-
  What each of the two launches leaves in its output array, for any contents V the launch is entered at.

  A launch walks 20 row tiles of 5000 rows. At tile t it loads rows 5000 t .. 5000 t + 4999 of its left operand and the
  whole right operand, multiplies them on the matrix unit into a zero accumulator, and writes the result back as rows
  5000 t .. 5000 t + 4999 of the output. Row p of a matrix product depends on row p of the left operand alone, so a row
  tile of the product of the whole arrays is the product of the row tile with the right operand: every tile written back
  is its block of ONE function of the two operand arrays, the matrix product. The 20 tiles cover the 100000 rows, so the
  output array ends holding that product.
-/
import proofs.«101474_j80625126080586_1_alg».proof.Proof.Gen.KernelIdeal.Frame
import proofs.«101474_j80625126080586_1_alg».proof.Proof.LibRowProduct
import Idealize.ShloMosaic.Lib.Pipeline.Value
import Idealize.ShloMosaic.Lib.ValueIdx

set_option maxRecDepth 16384

noncomputable section

namespace Cert.KernelIdeal.Tiles

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowProduct Cert.LibMatmulPlain

theorem hz : (![0, 0] : Fin 2 → Nat) = fun _ => 0 := funext fun a => by fin_cases a <;> rfl

variable (V : (c : Dev nD) → (b : Ref sig .tc) → Buf (Elt Ideal) ((c : Thread nD τ).loc b))

/-! ## The first launch: [100000, 512] times [512, 16] -/

/-- The body leaves in the output tile the product of the two loaded tiles. -/
theorem out0_eq (x0 : Vec Ideal S5000x512 .f32) (x1 : Vec Ideal S512x16 .f32) :
    out0_2 (F := Ideal) x0 x1 = prod x0 x1 := by
  unfold out0_2
  rw [View.canon_unit_zero hz]
  simp only [View.ld_unit_zero (S := S5000x512) hz, View.ld_unit_zero (S := S512x16) hz]
  exact matmul_zero_eq_prod Facts₀.dot_S5000x512_S512x16_S5000x16_1_0_0_1_n_n_wf x0 x1

/-- The index maps over the grid: the left operand's and the output's row-tile index are the grid position, every other
    block index is 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row of the arrays that row p of tile t is. -/
def row0 (t : Fin cfg0.N) (p : Fin 5000) : Fin 100000 :=
  ⟨t.val * 5000 + p.val, by have ht : t.val < 20 := N_0 ▸ t.isLt; have hp := p.isLt; omega⟩

/-- WHAT TILE t WRITES BACK is block t of the product of the two operand arrays as the launch finds them. -/
theorem flushed0 (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2, out0_eq]
  obtain ⟨e0, e1, e2, e3, e4, e5⟩ := idx0 t
  refine prod_tile (V c main_arg0) (V c main_arg2) (iblk0 V c 0 t) (iblk0 V c 1 t) (((cfg0.win 2).blk t).view.emb) (row0 t) ?_ ?_ ?_
  · intro p k
    have hi : ((cfg0.win 0).blk t).view.emb (ix2 p k) = ix2 (row0 t p) k := by
      funext a; apply Fin.ext
      match a with
      | ⟨0, _⟩ => show win0_0.index t (0 : Fin 2) * 5000 + 1 * p.val = t.val * 5000 + p.val; omega
      | ⟨1, _⟩ => show win0_0.index t (1 : Fin 2) * 512 + 1 * k.val = k.val; omega
    show V c main_arg0 (((cfg0.win 0).blk t).view.emb (ix2 p k)) = _
    rw [hi]
  · intro k q
    have hi : ((cfg0.win 1).blk t).view.emb (ix2 k q) = ix2 k q := by
      funext a; apply Fin.ext
      match a with
      | ⟨0, _⟩ => show win0_1.index t (0 : Fin 2) * 512 + 1 * k.val = k.val; omega
      | ⟨1, _⟩ => show win0_1.index t (1 : Fin 2) * 16 + 1 * q.val = q.val; omega
    show V c main_arg2 (((cfg0.win 1).blk t).view.emb (ix2 k q)) = _
    rw [hi]
  · intro p q
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega

/-- An index of the output array is in tile t's block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v4).slice (win0_2.rect t)).set ↔ _
  rw [View.set_slice_whole, Rect.mem_set_unit]
  exact Iff.rfl

/-- Row i 0 lies in tile (i 0) / 5000: the tiles cover the output array. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE OUTPUT ARRAY of the first launch after its run: the product of its operand arrays as it found them. -/
theorem final0 (c : Dev nD) : (dat0 V c).arrAt 2 cfg0.N = prod (V c main_arg0) (V c main_arg2) :=
  (dat0 V c).arrAt_eq_of_cover 2 (prod (V c main_arg0) (V c main_arg2)) (fun t _ => flushed0 V c t) cover0

/-! ## The second launch: [100000, 16] times [16, 7] -/

/-- The body leaves in the output tile the product of the two loaded tiles (the left one through a shape cast to its own
    shape, which is the identity). -/
theorem out1_eq (x0 : Vec Ideal S5000x16 .f32) (x1 : Vec Ideal S16x7 .f32) :
    out1_2 (F := Ideal) x0 x1 = prod x0 x1 := by
  unfold out1_2
  rw [View.canon_unit_zero hz]
  simp only [View.ld_unit_zero (S := S5000x16) hz, View.ld_unit_zero (S := S16x7) hz]
  unfold k1_pay1
  rw [shapeCast_self]
  exact matmul_zero_eq_prod Facts₀.dot_S5000x16_S16x7_S5000x7_1_0_0_1_n_n_wf x0 x1

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

def row1 (t : Fin cfg1.N) (p : Fin 5000) : Fin 100000 :=
  ⟨t.val * 5000 + p.val, by have ht : t.val < 20 := N_1 ▸ t.isLt; have hp := p.isLt; omega⟩

/-- WHAT TILE t WRITES BACK is block t of the product of the two operand arrays as the launch finds them. -/
theorem flushed1 (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2, out1_eq]
  obtain ⟨e0, e1, e2, e3, e4, e5⟩ := idx1 t
  refine prod_tile (V c main_v47) (V c main_arg4) (iblk1 V c 0 t) (iblk1 V c 1 t) (((cfg1.win 2).blk t).view.emb) (row1 t) ?_ ?_ ?_
  · intro p k
    have hi : ((cfg1.win 0).blk t).view.emb (ix2 p k) = ix2 (row1 t p) k := by
      funext a; apply Fin.ext
      match a with
      | ⟨0, _⟩ => show win1_0.index t (0 : Fin 2) * 5000 + 1 * p.val = t.val * 5000 + p.val; omega
      | ⟨1, _⟩ => show win1_0.index t (1 : Fin 2) * 16 + 1 * k.val = k.val; omega
    show V c main_v47 (((cfg1.win 0).blk t).view.emb (ix2 p k)) = _
    rw [hi]
  · intro k q
    have hi : ((cfg1.win 1).blk t).view.emb (ix2 k q) = ix2 k q := by
      funext a; apply Fin.ext
      match a with
      | ⟨0, _⟩ => show win1_1.index t (0 : Fin 2) * 16 + 1 * k.val = k.val; omega
      | ⟨1, _⟩ => show win1_1.index t (1 : Fin 2) * 7 + 1 * q.val = q.val; omega
    show V c main_arg4 (((cfg1.win 1).blk t).view.emb (ix2 k q)) = _
    rw [hi]
  · intro p q
    funext a; apply Fin.ext
    match a with
    | ⟨0, _⟩ => show win1_2.index t (0 : Fin 2) * 5000 + 1 * p.val = t.val * 5000 + p.val; omega
    | ⟨1, _⟩ => show win1_2.index t (1 : Fin 2) * 7 + 1 * q.val = q.val; omega

theorem mem_blk1 (t : Fin cfg1.N) (i : S100000x7.Idx) :
    i ∈ ((cfg1.win 2).blk t).view.set ↔ ∀ a : Fin 2, win1_2.index t a * S5000x7.size a ≤ (i a).val ∧ (i a).val < win1_2.index t a * S5000x7.size a + S5000x7.size a := by
  show i ∈ ((View.whole main_v48).slice (win1_2.rect t)).set ↔ _
  rw [View.set_slice_whole, Rect.mem_set_unit]
  exact Iff.rfl

theorem cover1 (i : S100000x7.Idx) : ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 7 ≤ (i 1).val ∧ (i 1).val < win1_2.index t (1 : Fin 2) * 7 + 7; omega

/-- THE OUTPUT ARRAY of the second launch after its run: the product of its operand arrays as it found them. -/
theorem final1 (c : Dev nD) : (dat1 V c).arrAt 2 cfg1.N = prod (V c main_v47) (V c main_arg4) :=
  (dat1 V c).arrAt_eq_of_cover 2 (prod (V c main_v47) (V c main_arg4)) (fun t _ => flushed1 V c t) cover1

end Cert.KernelIdeal.Tiles

end
-- ==== Proof.RefCut.lean ====
/-
  The reference's 119 host operations cut where the kernel's program has its two launches: the four operations that
  take the two rows of the edge list apart, the first matrix product, the first aggregation with its clamp at zero, the
  second matrix product, and the second aggregation. Running the whole list is running the five pieces in turn.
-/
import proofs.«101474_j80625126080586_1_alg».proof.Proof.ReferenceRun
import Idealize.ShloMosaic.Lib.Pipeline.Frame

noncomputable section

namespace Cert.ReferenceIdeal.Cut

open Cert.ReferenceIdeal Cert.ReferenceIdeal.ValueP
open Idealize.ShloMosaic Idealize.ShloMosaic.TcCoe Idealize.ShloMosaic.StableHlo

variable {F : FTy → Type} [FloatOps F]

/-- What follows the first four operations, -/
abbrev tail1 : List (HloOp τ sig (Elt F)) := (ops (F := F)).drop 4
/-- what follows the first product, -/
abbrev tail2 : List (HloOp τ sig (Elt F)) := (tail1 (F := F)).drop 1
/-- and what follows the first aggregation. -/
abbrev tail3 : List (HloOp τ sig (Elt F)) := (tail2 (F := F)).drop 58

/-- The two rows of the edge list, each as a vector. -/
abbrev opsA : List (HloOp τ sig (Elt F)) := (ops (F := F)).take 4
/-- The first matrix product. -/
abbrev opsD0 : List (HloOp τ sig (Elt F)) := (tail1 (F := F)).take 1
/-- The first aggregation, its bias and its clamp at zero. -/
abbrev opsB : List (HloOp τ sig (Elt F)) := (tail2 (F := F)).take 58
/-- The second matrix product. -/
abbrev opsD1 : List (HloOp τ sig (Elt F)) := (tail3 (F := F)).take 1
/-- The second aggregation and its bias. -/
abbrev opsC : List (HloOp τ sig (Elt F)) := (tail3 (F := F)).drop 1

theorem ops_cut : ops (F := F) = opsA ++ (opsD0 ++ (opsB ++ (opsD1 ++ opsC))) := by
  show ops = List.take 4 ops ++ (List.take 1 (List.drop 4 ops) ++ (List.take 58 (List.drop 1 (List.drop 4 ops))
    ++ (List.take 1 (List.drop 58 (List.drop 1 (List.drop 4 ops))) ++ List.drop 1 (List.drop 58 (List.drop 1 (List.drop 4 ops))))))
  simp only [List.take_append_drop]

/-- The contents after the whole list are the contents after the five pieces in turn. -/
theorem after_cut (V : Valuation τ sig (Elt F)) :
    after (ops (F := F)) V = after opsC (after opsD1 (after opsB (after opsD0 (after opsA V)))) := by
  have h := congrArg (fun l => after l V) (ops_cut (F := F))
  simp only [StableHlo.after_append] at h
  exact h

end Cert.ReferenceIdeal.Cut

end
-- ==== Proof.Passes.lean ====
/-
  What each piece of either program leaves alone. A host operation writes its own result buffer and nothing else, so a
  buffer that no operation of a piece writes holds after the piece what it held before; and the two matrix products of
  the reference, each a piece of one operation, leave their product in their result buffer.
-/
import proofs.«101474_j80625126080586_1_alg».proof.Proof.RefCut
import proofs.«101474_j80625126080586_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.StableHlo

variable {F : FTy → Type} [FloatOps F]

section Reference
variable (V : Valuation Cert.ReferenceIdeal.τ Cert.ReferenceIdeal.sig (Elt F))

/-- Taking the edge list apart leaves the float arguments alone. -/
theorem refA_pass : after Cert.ReferenceIdeal.Cut.opsA V (Proc.devRef .tc Cert.ReferenceIdeal.main_arg0) = V (Proc.devRef .tc Cert.ReferenceIdeal.main_arg0)
      ∧ after Cert.ReferenceIdeal.Cut.opsA V (Proc.devRef .tc Cert.ReferenceIdeal.main_arg2) = V (Proc.devRef .tc Cert.ReferenceIdeal.main_arg2)
      ∧ after Cert.ReferenceIdeal.Cut.opsA V (Proc.devRef .tc Cert.ReferenceIdeal.main_arg3) = V (Proc.devRef .tc Cert.ReferenceIdeal.main_arg3)
      ∧ after Cert.ReferenceIdeal.Cut.opsA V (Proc.devRef .tc Cert.ReferenceIdeal.main_arg4) = V (Proc.devRef .tc Cert.ReferenceIdeal.main_arg4)
      ∧ after Cert.ReferenceIdeal.Cut.opsA V (Proc.devRef .tc Cert.ReferenceIdeal.main_arg5) = V (Proc.devRef .tc Cert.ReferenceIdeal.main_arg5) := by
  refine ⟨?_, ?_, ?_, ?_, ?_⟩ <;> (dsimp only [Cert.ReferenceIdeal.Cut.opsA, Cert.ReferenceIdeal.Cut.opsB, Cert.ReferenceIdeal.Cut.opsC, Cert.ReferenceIdeal.Cut.opsD0, Cert.ReferenceIdeal.Cut.opsD1, Cert.ReferenceIdeal.Cut.tail1, Cert.ReferenceIdeal.Cut.tail2, Cert.ReferenceIdeal.Cut.tail3, Cert.ReferenceIdeal.ValueP.ops, List.take, List.drop]; after_results_simp)

/-- The first product of the reference, and what it leaves alone. -/
theorem refD0 : after Cert.ReferenceIdeal.Cut.opsD0 V (Proc.devRef .tc Cert.ReferenceIdeal.main_v4)
        = Host.dotGeneral Cert.ReferenceIdeal.dot_S100000x512_S512x16_S100000x16_1_0_0_1_n_n none (V (Proc.devRef .tc Cert.ReferenceIdeal.main_arg0)) (V (Proc.devRef .tc Cert.ReferenceIdeal.main_arg2))
      ∧ after Cert.ReferenceIdeal.Cut.opsD0 V (Proc.devRef .tc Cert.ReferenceIdeal.main_v1) = V (Proc.devRef .tc Cert.ReferenceIdeal.main_v1)
      ∧ after Cert.ReferenceIdeal.Cut.opsD0 V (Proc.devRef .tc Cert.ReferenceIdeal.main_v3) = V (Proc.devRef .tc Cert.ReferenceIdeal.main_v3)
      ∧ after Cert.ReferenceIdeal.Cut.opsD0 V (Proc.devRef .tc Cert.ReferenceIdeal.main_arg3) = V (Proc.devRef .tc Cert.ReferenceIdeal.main_arg3)
      ∧ after Cert.ReferenceIdeal.Cut.opsD0 V (Proc.devRef .tc Cert.ReferenceIdeal.main_arg4) = V (Proc.devRef .tc Cert.ReferenceIdeal.main_arg4)
      ∧ after Cert.ReferenceIdeal.Cut.opsD0 V (Proc.devRef .tc Cert.ReferenceIdeal.main_arg5) = V (Proc.devRef .tc Cert.ReferenceIdeal.main_arg5) := by
  refine ⟨?_, ?_, ?_, ?_, ?_, ?_⟩ <;> (dsimp only [Cert.ReferenceIdeal.Cut.opsA, Cert.ReferenceIdeal.Cut.opsB, Cert.ReferenceIdeal.Cut.opsC, Cert.ReferenceIdeal.Cut.opsD0, Cert.ReferenceIdeal.Cut.opsD1, Cert.ReferenceIdeal.Cut.tail1, Cert.ReferenceIdeal.Cut.tail2, Cert.ReferenceIdeal.Cut.tail3, Cert.ReferenceIdeal.ValueP.ops, List.take, List.drop]; after_results_simp)

/-- The first aggregation leaves the edge vectors and the second layer's arguments alone. -/
theorem refB_pass : after Cert.ReferenceIdeal.Cut.opsB V (Proc.devRef .tc Cert.ReferenceIdeal.main_v1) = V (Proc.devRef .tc Cert.ReferenceIdeal.main_v1)
      ∧ after Cert.ReferenceIdeal.Cut.opsB V (Proc.devRef .tc Cert.ReferenceIdeal.main_v3) = V (Proc.devRef .tc Cert.ReferenceIdeal.main_v3)
      ∧ after Cert.ReferenceIdeal.Cut.opsB V (Proc.devRef .tc Cert.ReferenceIdeal.main_arg4) = V (Proc.devRef .tc Cert.ReferenceIdeal.main_arg4)
      ∧ after Cert.ReferenceIdeal.Cut.opsB V (Proc.devRef .tc Cert.ReferenceIdeal.main_arg5) = V (Proc.devRef .tc Cert.ReferenceIdeal.main_arg5) := by
  refine ⟨?_, ?_, ?_, ?_⟩ <;> (dsimp only [Cert.ReferenceIdeal.Cut.opsA, Cert.ReferenceIdeal.Cut.opsB, Cert.ReferenceIdeal.Cut.opsC, Cert.ReferenceIdeal.Cut.opsD0, Cert.ReferenceIdeal.Cut.opsD1, Cert.ReferenceIdeal.Cut.tail1, Cert.ReferenceIdeal.Cut.tail2, Cert.ReferenceIdeal.Cut.tail3, Cert.ReferenceIdeal.ValueP.ops, List.take, List.drop]; after_results_simp)

/-- The second product of the reference, and what it leaves alone. -/
theorem refD1 : after Cert.ReferenceIdeal.Cut.opsD1 V (Proc.devRef .tc Cert.ReferenceIdeal.main_v48)
        = Host.dotGeneral Cert.ReferenceIdeal.dot_S100000x16_S16x7_S100000x7_1_0_0_1_n_n none (V (Proc.devRef .tc Cert.ReferenceIdeal.main_v47)) (V (Proc.devRef .tc Cert.ReferenceIdeal.main_arg4))
      ∧ after Cert.ReferenceIdeal.Cut.opsD1 V (Proc.devRef .tc Cert.ReferenceIdeal.main_v1) = V (Proc.devRef .tc Cert.ReferenceIdeal.main_v1)
      ∧ after Cert.ReferenceIdeal.Cut.opsD1 V (Proc.devRef .tc Cert.ReferenceIdeal.main_v3) = V (Proc.devRef .tc Cert.ReferenceIdeal.main_v3)
      ∧ after Cert.ReferenceIdeal.Cut.opsD1 V (Proc.devRef .tc Cert.ReferenceIdeal.main_arg5) = V (Proc.devRef .tc Cert.ReferenceIdeal.main_arg5) := by
  refine ⟨?_, ?_, ?_, ?_⟩ <;> (dsimp only [Cert.ReferenceIdeal.Cut.opsA, Cert.ReferenceIdeal.Cut.opsB, Cert.ReferenceIdeal.Cut.opsC, Cert.ReferenceIdeal.Cut.opsD0, Cert.ReferenceIdeal.Cut.opsD1, Cert.ReferenceIdeal.Cut.tail1, Cert.ReferenceIdeal.Cut.tail2, Cert.ReferenceIdeal.Cut.tail3, Cert.ReferenceIdeal.ValueP.ops, List.take, List.drop]; after_results_simp)

end Reference

section Kernel
variable (VK : Valuation Cert.KernelIdeal.τ Cert.KernelIdeal.sig (Elt F))

/-- Taking the edge list apart leaves the float arguments alone. -/
theorem kerA_pass : after Cert.KernelIdeal.Gen.hostOps0 VK (Proc.devRef .tc Cert.KernelIdeal.main_arg0) = VK (Proc.devRef .tc Cert.KernelIdeal.main_arg0)
      ∧ after Cert.KernelIdeal.Gen.hostOps0 VK (Proc.devRef .tc Cert.KernelIdeal.main_arg2) = VK (Proc.devRef .tc Cert.KernelIdeal.main_arg2)
      ∧ after Cert.KernelIdeal.Gen.hostOps0 VK (Proc.devRef .tc Cert.KernelIdeal.main_arg3) = VK (Proc.devRef .tc Cert.KernelIdeal.main_arg3)
      ∧ after Cert.KernelIdeal.Gen.hostOps0 VK (Proc.devRef .tc Cert.KernelIdeal.main_arg4) = VK (Proc.devRef .tc Cert.KernelIdeal.main_arg4)
      ∧ after Cert.KernelIdeal.Gen.hostOps0 VK (Proc.devRef .tc Cert.KernelIdeal.main_arg5) = VK (Proc.devRef .tc Cert.KernelIdeal.main_arg5) := by
  refine ⟨?_, ?_, ?_, ?_, ?_⟩ <;> (dsimp only [Cert.KernelIdeal.Gen.hostOps0, Cert.KernelIdeal.Gen.hostOps1, Cert.KernelIdeal.Gen.hostOps1_1, Cert.KernelIdeal.Gen.hostOps1_2, Cert.KernelIdeal.Gen.hostOps1_3, Cert.KernelIdeal.Gen.hostOps2, Cert.KernelIdeal.Gen.hostOps2_1, Cert.KernelIdeal.Gen.hostOps2_2]; after_results_simp)

/-- The first aggregation leaves the edge vectors and the second layer's arguments alone. -/
theorem kerB_pass : after Cert.KernelIdeal.Gen.hostOps1_3 (after Cert.KernelIdeal.Gen.hostOps1_2 (after Cert.KernelIdeal.Gen.hostOps1_1 (after Cert.KernelIdeal.Gen.hostOps1 VK))) (Proc.devRef .tc Cert.KernelIdeal.main_v1) = VK (Proc.devRef .tc Cert.KernelIdeal.main_v1)
      ∧ after Cert.KernelIdeal.Gen.hostOps1_3 (after Cert.KernelIdeal.Gen.hostOps1_2 (after Cert.KernelIdeal.Gen.hostOps1_1 (after Cert.KernelIdeal.Gen.hostOps1 VK))) (Proc.devRef .tc Cert.KernelIdeal.main_v3) = VK (Proc.devRef .tc Cert.KernelIdeal.main_v3)
      ∧ after Cert.KernelIdeal.Gen.hostOps1_3 (after Cert.KernelIdeal.Gen.hostOps1_2 (after Cert.KernelIdeal.Gen.hostOps1_1 (after Cert.KernelIdeal.Gen.hostOps1 VK))) (Proc.devRef .tc Cert.KernelIdeal.main_arg4) = VK (Proc.devRef .tc Cert.KernelIdeal.main_arg4)
      ∧ after Cert.KernelIdeal.Gen.hostOps1_3 (after Cert.KernelIdeal.Gen.hostOps1_2 (after Cert.KernelIdeal.Gen.hostOps1_1 (after Cert.KernelIdeal.Gen.hostOps1 VK))) (Proc.devRef .tc Cert.KernelIdeal.main_arg5) = VK (Proc.devRef .tc Cert.KernelIdeal.main_arg5) := by
  refine ⟨?_, ?_, ?_, ?_⟩ <;> (dsimp only [Cert.KernelIdeal.Gen.hostOps0, Cert.KernelIdeal.Gen.hostOps1, Cert.KernelIdeal.Gen.hostOps1_1, Cert.KernelIdeal.Gen.hostOps1_2, Cert.KernelIdeal.Gen.hostOps1_3, Cert.KernelIdeal.Gen.hostOps2, Cert.KernelIdeal.Gen.hostOps2_1, Cert.KernelIdeal.Gen.hostOps2_2]; after_results_simp)

end Kernel

end Cert.Stretch

end
-- ==== Proof.StretchA.lean ====
/-
  The first four host operations are the same in both programs: they slice the two rows of the edge list and reshape
  each to a vector. From contents that agree on the edge list both programs reach the same two vectors.
-/
import proofs.«101474_j80625126080586_1_alg».proof.Proof.RefCut
import proofs.«101474_j80625126080586_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.StableHlo

variable {F : FTy → Type} [FloatOps F]

variable (VK : Valuation Cert.KernelIdeal.τ Cert.KernelIdeal.sig (Elt F)) (VR : Valuation Cert.ReferenceIdeal.τ Cert.ReferenceIdeal.sig (Elt F))

/-- The sources of the edges. -/
theorem stretchA_v1 (h1 : VR (Proc.devRef .tc Cert.ReferenceIdeal.main_arg1) = VK (Proc.devRef .tc Cert.KernelIdeal.main_arg1)) :
    after Cert.ReferenceIdeal.Cut.opsA VR (Proc.devRef .tc Cert.ReferenceIdeal.main_v1) = after Cert.KernelIdeal.Gen.hostOps0 VK (Proc.devRef .tc Cert.KernelIdeal.main_v1) := by
  dsimp only [Cert.ReferenceIdeal.Cut.opsA, Cert.ReferenceIdeal.Cut.opsB, Cert.ReferenceIdeal.Cut.opsC, Cert.ReferenceIdeal.Cut.opsD0, Cert.ReferenceIdeal.Cut.opsD1, Cert.ReferenceIdeal.Cut.tail1, Cert.ReferenceIdeal.Cut.tail2, Cert.ReferenceIdeal.Cut.tail3, Cert.ReferenceIdeal.ValueP.ops, List.take, List.drop, Cert.KernelIdeal.Gen.hostOps0]
  after_results_simp
  rw [h1]
  rfl

/-- The destinations of the edges. -/
theorem stretchA_v3 (h1 : VR (Proc.devRef .tc Cert.ReferenceIdeal.main_arg1) = VK (Proc.devRef .tc Cert.KernelIdeal.main_arg1)) :
    after Cert.ReferenceIdeal.Cut.opsA VR (Proc.devRef .tc Cert.ReferenceIdeal.main_v3) = after Cert.KernelIdeal.Gen.hostOps0 VK (Proc.devRef .tc Cert.KernelIdeal.main_v3) := by
  dsimp only [Cert.ReferenceIdeal.Cut.opsA, Cert.ReferenceIdeal.Cut.opsB, Cert.ReferenceIdeal.Cut.opsC, Cert.ReferenceIdeal.Cut.opsD0, Cert.ReferenceIdeal.Cut.opsD1, Cert.ReferenceIdeal.Cut.tail1, Cert.ReferenceIdeal.Cut.tail2, Cert.ReferenceIdeal.Cut.tail3, Cert.ReferenceIdeal.ValueP.ops, List.take, List.drop, Cert.KernelIdeal.Gen.hostOps0]
  after_results_simp
  rw [h1]
  rfl

end Cert.Stretch

end
-- ==== Proof.StretchB.lean ====
/-
  Between the two matrix products both programs run the same 58 host operations: the self-loops appended to the edge
  list, the degrees by a scatter-add of ones, their inverse square roots where positive, the two gathers of those and
  their product per edge, the gather of the product's rows, the scaling, the scatter-add back to the nodes, the bias and
  the clamp at zero. Read as one function of the four values it starts from (the two edge vectors, the first product
  and the first bias) the stretch is the same term in both programs, so equal inputs give equal outputs. The stretch is
  never opened: it holds a scatter-add and an inverse square root whose values are not looked at.
-/
import proofs.«101474_j80625126080586_1_alg».proof.Proof.RefCut
import proofs.«101474_j80625126080586_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.StableHlo

variable {F : FTy → Type} [FloatOps F]

variable (VK : Valuation Cert.KernelIdeal.τ Cert.KernelIdeal.sig (Elt F)) (VR : Valuation Cert.ReferenceIdeal.τ Cert.ReferenceIdeal.sig (Elt F))

set_option maxHeartbeats 50000000 in
/-- The first layer's output, clamped, from the first product. -/
theorem stretchB_v47 (h1 : VR (Proc.devRef .tc Cert.ReferenceIdeal.main_v1) = VK (Proc.devRef .tc Cert.KernelIdeal.main_v1)) (h3 : VR (Proc.devRef .tc Cert.ReferenceIdeal.main_v3) = VK (Proc.devRef .tc Cert.KernelIdeal.main_v3))
    (h4 : VR (Proc.devRef .tc Cert.ReferenceIdeal.main_v4) = VK (Proc.devRef .tc Cert.KernelIdeal.main_v4)) (hb : VR (Proc.devRef .tc Cert.ReferenceIdeal.main_arg3) = VK (Proc.devRef .tc Cert.KernelIdeal.main_arg3)) :
    after Cert.ReferenceIdeal.Cut.opsB VR (Proc.devRef .tc Cert.ReferenceIdeal.main_v47) = after Cert.KernelIdeal.Gen.hostOps1_3 (after Cert.KernelIdeal.Gen.hostOps1_2 (after Cert.KernelIdeal.Gen.hostOps1_1 (after Cert.KernelIdeal.Gen.hostOps1 VK))) (Proc.devRef .tc Cert.KernelIdeal.main_v47) := by
  dsimp only [Cert.ReferenceIdeal.Cut.opsA, Cert.ReferenceIdeal.Cut.opsB, Cert.ReferenceIdeal.Cut.opsC, Cert.ReferenceIdeal.Cut.opsD0, Cert.ReferenceIdeal.Cut.opsD1, Cert.ReferenceIdeal.Cut.tail1, Cert.ReferenceIdeal.Cut.tail2, Cert.ReferenceIdeal.Cut.tail3, Cert.ReferenceIdeal.ValueP.ops, List.take, List.drop, Cert.KernelIdeal.Gen.hostOps1, Cert.KernelIdeal.Gen.hostOps1_1, Cert.KernelIdeal.Gen.hostOps1_2, Cert.KernelIdeal.Gen.hostOps1_3]
  after_results_simp
  -- what is left inside the concatenated index vectors: at most three operations deep
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, h4, hb]
  rfl

end Cert.Stretch

end
-- ==== Proof.StretchC.lean ====
/-
  After the second matrix product both programs run the same 55 host operations: the second aggregation (self-loops,
  degrees, inverse square roots, gathers, scaling, scatter-add) and the second bias. As one function of the two edge
  vectors, the second product and the second bias it is the same term in both programs; it is never opened.
-/
import proofs.«101474_j80625126080586_1_alg».proof.Proof.RefCut
import proofs.«101474_j80625126080586_1_alg».proof.Proof.Gen.KernelIdeal.Launch
import Idealize.ShloMosaic.Lib.StableHlo.Run

set_option maxRecDepth 16384

noncomputable section

namespace Cert.Stretch

open Idealize.ShloMosaic Idealize.ShloMosaic.TcCoe Idealize.ShloMosaic.StableHlo

variable {F : FTy → Type} [FloatOps F]

variable (VK : Valuation Cert.KernelIdeal.τ Cert.KernelIdeal.sig (Elt F)) (VR : Valuation Cert.ReferenceIdeal.τ Cert.ReferenceIdeal.sig (Elt F))

set_option maxHeartbeats 50000000 in
/-- The result, from the second product. -/
theorem stretchC_v90 (h1 : VR (Proc.devRef .tc Cert.ReferenceIdeal.main_v1) = VK (Proc.devRef .tc Cert.KernelIdeal.main_v1)) (h3 : VR (Proc.devRef .tc Cert.ReferenceIdeal.main_v3) = VK (Proc.devRef .tc Cert.KernelIdeal.main_v3))
    (h48 : VR (Proc.devRef .tc Cert.ReferenceIdeal.main_v48) = VK (Proc.devRef .tc Cert.KernelIdeal.main_v48)) (hb : VR (Proc.devRef .tc Cert.ReferenceIdeal.main_arg5) = VK (Proc.devRef .tc Cert.KernelIdeal.main_arg5)) :
    after Cert.ReferenceIdeal.Cut.opsC VR (Proc.devRef .tc Cert.ReferenceIdeal.main_v90) = after Cert.KernelIdeal.Gen.hostOps2_2 (after Cert.KernelIdeal.Gen.hostOps2_1 (after Cert.KernelIdeal.Gen.hostOps2 VK)) (Proc.devRef .tc Cert.KernelIdeal.main_v90) := by
  dsimp only [Cert.ReferenceIdeal.Cut.opsA, Cert.ReferenceIdeal.Cut.opsB, Cert.ReferenceIdeal.Cut.opsC, Cert.ReferenceIdeal.Cut.opsD0, Cert.ReferenceIdeal.Cut.opsD1, Cert.ReferenceIdeal.Cut.tail1, Cert.ReferenceIdeal.Cut.tail2, Cert.ReferenceIdeal.Cut.tail3, Cert.ReferenceIdeal.ValueP.ops, List.take, List.drop, Cert.KernelIdeal.Gen.hostOps2, Cert.KernelIdeal.Gen.hostOps2_1, Cert.KernelIdeal.Gen.hostOps2_2]
  after_results_simp
  -- what is left inside the concatenated index vectors: at most three operations deep
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1, h3, h48, hb]
  rfl

end Cert.Stretch

end
-- ==== Proof.Bridge.lean ====
/-
  The two programs end with the same result.

  Both start from memories that agree on the six arguments. Follow the contents of the buffers through the five pieces
  both programs are made of. (1) Taking the edge list apart: the same four operations, so the two edge vectors agree.
  (2) The first product: the reference's dot_general and the kernel's first launch both leave the matrix product of the
  same two arrays (the launch by its twenty row tiles, a tile of a product being the product of the tile). (3) The first
  aggregation, bias and clamp: the same 58 operations on values that agree. (4) The second product: as (2). (5) The
  second aggregation and bias: the same 55 operations on values that agree. Nothing is asked of the values themselves:
  no entry needs to be finite and no index in range, since the shared pieces are never opened and a sum of products over
  a finite type needs no order.
-/
import proofs.«101474_j80625126080586_1_alg».proof.Proof.Tiles
import proofs.«101474_j80625126080586_1_alg».proof.Proof.Passes
import proofs.«101474_j80625126080586_1_alg».proof.Proof.StretchA
import proofs.«101474_j80625126080586_1_alg».proof.Proof.StretchB
import proofs.«101474_j80625126080586_1_alg».proof.Proof.StretchC

set_option maxRecDepth 16384

noncomputable section

namespace Cert.Bridge

open Idealize.ShloMosaic Idealize.ShloMosaic.TcCoe Idealize.ShloMosaic.StableHlo Idealize.SL.Sem
open Cert.LibRowProduct Cert.Stretch Cert.KernelIdeal.Tiles

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! ## The kernel's two launches, read at the boundaries of its run -/

/-- After the first launch its output buffer holds the product of the first two float arguments as the launch found them. -/
theorem W2_v4 (c : Dev Cert.KernelIdeal.nD) : Cert.KernelIdeal.Gen.W2 m ρ c (Proc.devRef .tc Cert.KernelIdeal.main_v4)
    = prod (M := 100000) (K := 512) (N := 16) (Cert.KernelIdeal.Gen.W1 m ρ c (Proc.devRef .tc Cert.KernelIdeal.main_arg0)) (Cert.KernelIdeal.Gen.W1 m ρ c (Proc.devRef .tc Cert.KernelIdeal.main_arg2)) :=
  (Cert.KernelIdeal.Gen.W2_arr m ρ c 2).trans (final0 (Cert.KernelIdeal.Gen.V1 m ρ) c)

/-- After the second launch its output buffer holds the product of the clamped first layer with the second weights. -/
theorem W7_v48 (c : Dev Cert.KernelIdeal.nD) : Cert.KernelIdeal.Gen.W7 m ρ c (Proc.devRef .tc Cert.KernelIdeal.main_v48)
    = prod (M := 100000) (K := 16) (N := 7) (Cert.KernelIdeal.Gen.W6 m ρ c (Proc.devRef .tc Cert.KernelIdeal.main_v47)) (Cert.KernelIdeal.Gen.W6 m ρ c (Proc.devRef .tc Cert.KernelIdeal.main_arg4)) :=
  (Cert.KernelIdeal.Gen.W7_arr m ρ c 2).trans (final1 (Cert.KernelIdeal.Gen.V6 m ρ) c)

/-- The first launch leaves every buffer that is not one of its arrays alone. -/
theorem W2_pass (c : Dev Cert.KernelIdeal.nD) : Cert.KernelIdeal.Gen.W2 m ρ c (Proc.devRef .tc Cert.KernelIdeal.main_v1) = Cert.KernelIdeal.Gen.W1 m ρ c (Proc.devRef .tc Cert.KernelIdeal.main_v1)
      ∧ Cert.KernelIdeal.Gen.W2 m ρ c (Proc.devRef .tc Cert.KernelIdeal.main_v3) = Cert.KernelIdeal.Gen.W1 m ρ c (Proc.devRef .tc Cert.KernelIdeal.main_v3)
      ∧ Cert.KernelIdeal.Gen.W2 m ρ c (Proc.devRef .tc Cert.KernelIdeal.main_arg3) = Cert.KernelIdeal.Gen.W1 m ρ c (Proc.devRef .tc Cert.KernelIdeal.main_arg3)
      ∧ Cert.KernelIdeal.Gen.W2 m ρ c (Proc.devRef .tc Cert.KernelIdeal.main_arg4) = Cert.KernelIdeal.Gen.W1 m ρ c (Proc.devRef .tc Cert.KernelIdeal.main_arg4)
      ∧ Cert.KernelIdeal.Gen.W2 m ρ c (Proc.devRef .tc Cert.KernelIdeal.main_arg5) = Cert.KernelIdeal.Gen.W1 m ρ c (Proc.devRef .tc Cert.KernelIdeal.main_arg5) :=
  ⟨Cert.KernelIdeal.Gen.W2_of_ne m ρ c Cert.KernelIdeal.main_v1 (by decide), Cert.KernelIdeal.Gen.W2_of_ne m ρ c Cert.KernelIdeal.main_v3 (by decide), Cert.KernelIdeal.Gen.W2_of_ne m ρ c Cert.KernelIdeal.main_arg3 (by decide), Cert.KernelIdeal.Gen.W2_of_ne m ρ c Cert.KernelIdeal.main_arg4 (by decide), Cert.KernelIdeal.Gen.W2_of_ne m ρ c Cert.KernelIdeal.main_arg5 (by decide)⟩

/-- The second launch leaves every buffer that is not one of its arrays alone. -/
theorem W7_pass (c : Dev Cert.KernelIdeal.nD) : Cert.KernelIdeal.Gen.W7 m ρ c (Proc.devRef .tc Cert.KernelIdeal.main_v1) = Cert.KernelIdeal.Gen.W6 m ρ c (Proc.devRef .tc Cert.KernelIdeal.main_v1)
      ∧ Cert.KernelIdeal.Gen.W7 m ρ c (Proc.devRef .tc Cert.KernelIdeal.main_v3) = Cert.KernelIdeal.Gen.W6 m ρ c (Proc.devRef .tc Cert.KernelIdeal.main_v3)
      ∧ Cert.KernelIdeal.Gen.W7 m ρ c (Proc.devRef .tc Cert.KernelIdeal.main_arg5) = Cert.KernelIdeal.Gen.W6 m ρ c (Proc.devRef .tc Cert.KernelIdeal.main_arg5) :=
  ⟨Cert.KernelIdeal.Gen.W7_of_ne m ρ c Cert.KernelIdeal.main_v1 (by decide), Cert.KernelIdeal.Gen.W7_of_ne m ρ c Cert.KernelIdeal.main_v3 (by decide), Cert.KernelIdeal.Gen.W7_of_ne m ρ c Cert.KernelIdeal.main_arg5 (by decide)⟩

/-! ## The result -/

/-- THE REFERENCE'S RESULT IS THE KERNEL'S: the reference's result buffer after its 119 operations holds what the kernel's
    program's result buffer holds at the end of its run, when the two memories agree on the arguments. -/
theorem result_eq
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    after (Cert.ReferenceIdeal.ValueP.ops (F := Ideal)) (launchContents m' c) (Proc.devRef .tc Cert.ReferenceIdeal.main_v90) = Cert.KernelIdeal.Gen.W10 m ρ c (Proc.devRef .tc Cert.KernelIdeal.main_v90) := by
  obtain ⟨a0, a1, a2, a3, a4, a5⟩ := hag c
  -- the launch contents agree on the arguments
  have l0 : (launchContents m' c) (Proc.devRef .tc Cert.ReferenceIdeal.main_arg0) = Cert.KernelIdeal.Gen.W0 m ρ c (Proc.devRef .tc Cert.KernelIdeal.main_arg0) := a0
  have l1 : (launchContents m' c) (Proc.devRef .tc Cert.ReferenceIdeal.main_arg1) = Cert.KernelIdeal.Gen.W0 m ρ c (Proc.devRef .tc Cert.KernelIdeal.main_arg1) := a1
  have l2 : (launchContents m' c) (Proc.devRef .tc Cert.ReferenceIdeal.main_arg2) = Cert.KernelIdeal.Gen.W0 m ρ c (Proc.devRef .tc Cert.KernelIdeal.main_arg2) := a2
  have l3 : (launchContents m' c) (Proc.devRef .tc Cert.ReferenceIdeal.main_arg3) = Cert.KernelIdeal.Gen.W0 m ρ c (Proc.devRef .tc Cert.KernelIdeal.main_arg3) := a3
  have l4 : (launchContents m' c) (Proc.devRef .tc Cert.ReferenceIdeal.main_arg4) = Cert.KernelIdeal.Gen.W0 m ρ c (Proc.devRef .tc Cert.KernelIdeal.main_arg4) := a4
  have l5 : (launchContents m' c) (Proc.devRef .tc Cert.ReferenceIdeal.main_arg5) = Cert.KernelIdeal.Gen.W0 m ρ c (Proc.devRef .tc Cert.KernelIdeal.main_arg5) := a5
  -- (1) the edge list taken apart
  obtain ⟨rA0, rA2, rA3, rA4, rA5⟩ := refA_pass (F := Ideal) (launchContents m' c)
  obtain ⟨kA0, kA2, kA3, kA4, kA5⟩ := kerA_pass (F := Ideal) (Cert.KernelIdeal.Gen.W0 m ρ c)
  have A1 : (after Cert.ReferenceIdeal.Cut.opsA (launchContents m' c)) (Proc.devRef .tc Cert.ReferenceIdeal.main_v1) = Cert.KernelIdeal.Gen.W1 m ρ c (Proc.devRef .tc Cert.KernelIdeal.main_v1) := stretchA_v1 (Cert.KernelIdeal.Gen.W0 m ρ c) (launchContents m' c) l1
  have A3 : (after Cert.ReferenceIdeal.Cut.opsA (launchContents m' c)) (Proc.devRef .tc Cert.ReferenceIdeal.main_v3) = Cert.KernelIdeal.Gen.W1 m ρ c (Proc.devRef .tc Cert.KernelIdeal.main_v3) := stretchA_v3 (Cert.KernelIdeal.Gen.W0 m ρ c) (launchContents m' c) l1
  have Aa0 : (after Cert.ReferenceIdeal.Cut.opsA (launchContents m' c)) (Proc.devRef .tc Cert.ReferenceIdeal.main_arg0) = Cert.KernelIdeal.Gen.W1 m ρ c (Proc.devRef .tc Cert.KernelIdeal.main_arg0) := rA0.trans (l0.trans kA0.symm)
  have Aa2 : (after Cert.ReferenceIdeal.Cut.opsA (launchContents m' c)) (Proc.devRef .tc Cert.ReferenceIdeal.main_arg2) = Cert.KernelIdeal.Gen.W1 m ρ c (Proc.devRef .tc Cert.KernelIdeal.main_arg2) := rA2.trans (l2.trans kA2.symm)
  have Aa3 : (after Cert.ReferenceIdeal.Cut.opsA (launchContents m' c)) (Proc.devRef .tc Cert.ReferenceIdeal.main_arg3) = Cert.KernelIdeal.Gen.W1 m ρ c (Proc.devRef .tc Cert.KernelIdeal.main_arg3) := rA3.trans (l3.trans kA3.symm)
  have Aa4 : (after Cert.ReferenceIdeal.Cut.opsA (launchContents m' c)) (Proc.devRef .tc Cert.ReferenceIdeal.main_arg4) = Cert.KernelIdeal.Gen.W1 m ρ c (Proc.devRef .tc Cert.KernelIdeal.main_arg4) := rA4.trans (l4.trans kA4.symm)
  have Aa5 : (after Cert.ReferenceIdeal.Cut.opsA (launchContents m' c)) (Proc.devRef .tc Cert.ReferenceIdeal.main_arg5) = Cert.KernelIdeal.Gen.W1 m ρ c (Proc.devRef .tc Cert.KernelIdeal.main_arg5) := rA5.trans (l5.trans kA5.symm)
  -- (2) the first product
  obtain ⟨rD4, rD1, rD3, rDa3, rDa4, rDa5⟩ := refD0 (F := Ideal) (after Cert.ReferenceIdeal.Cut.opsA (launchContents m' c))
  obtain ⟨kD1, kD3, kDa3, kDa4, kDa5⟩ := W2_pass m ρ c
  have D4 : (after Cert.ReferenceIdeal.Cut.opsD0 (after Cert.ReferenceIdeal.Cut.opsA (launchContents m' c))) (Proc.devRef .tc Cert.ReferenceIdeal.main_v4) = Cert.KernelIdeal.Gen.W2 m ρ c (Proc.devRef .tc Cert.KernelIdeal.main_v4) := by
    rw [rD4, W2_v4 m ρ c, Aa0, Aa2]
    exact dotGeneral_eq_prod Cert.ReferenceIdeal.Facts₀.dot_S100000x512_S512x16_S100000x16_1_0_0_1_n_n_wf _ _
  have D1 : (after Cert.ReferenceIdeal.Cut.opsD0 (after Cert.ReferenceIdeal.Cut.opsA (launchContents m' c))) (Proc.devRef .tc Cert.ReferenceIdeal.main_v1) = Cert.KernelIdeal.Gen.W2 m ρ c (Proc.devRef .tc Cert.KernelIdeal.main_v1) := rD1.trans (A1.trans kD1.symm)
  have D3 : (after Cert.ReferenceIdeal.Cut.opsD0 (after Cert.ReferenceIdeal.Cut.opsA (launchContents m' c))) (Proc.devRef .tc Cert.ReferenceIdeal.main_v3) = Cert.KernelIdeal.Gen.W2 m ρ c (Proc.devRef .tc Cert.KernelIdeal.main_v3) := rD3.trans (A3.trans kD3.symm)
  have Da3 : (after Cert.ReferenceIdeal.Cut.opsD0 (after Cert.ReferenceIdeal.Cut.opsA (launchContents m' c))) (Proc.devRef .tc Cert.ReferenceIdeal.main_arg3) = Cert.KernelIdeal.Gen.W2 m ρ c (Proc.devRef .tc Cert.KernelIdeal.main_arg3) := rDa3.trans (Aa3.trans kDa3.symm)
  have Da4 : (after Cert.ReferenceIdeal.Cut.opsD0 (after Cert.ReferenceIdeal.Cut.opsA (launchContents m' c))) (Proc.devRef .tc Cert.ReferenceIdeal.main_arg4) = Cert.KernelIdeal.Gen.W2 m ρ c (Proc.devRef .tc Cert.KernelIdeal.main_arg4) := rDa4.trans (Aa4.trans kDa4.symm)
  have Da5 : (after Cert.ReferenceIdeal.Cut.opsD0 (after Cert.ReferenceIdeal.Cut.opsA (launchContents m' c))) (Proc.devRef .tc Cert.ReferenceIdeal.main_arg5) = Cert.KernelIdeal.Gen.W2 m ρ c (Proc.devRef .tc Cert.KernelIdeal.main_arg5) := rDa5.trans (Aa5.trans kDa5.symm)
  -- (3) the first aggregation, bias and clamp
  obtain ⟨rB1, rB3, rBa4, rBa5⟩ := refB_pass (F := Ideal) (after Cert.ReferenceIdeal.Cut.opsD0 (after Cert.ReferenceIdeal.Cut.opsA (launchContents m' c)))
  obtain ⟨kB1, kB3, kBa4, kBa5⟩ := kerB_pass (F := Ideal) (Cert.KernelIdeal.Gen.W2 m ρ c)
  have B47 : (after Cert.ReferenceIdeal.Cut.opsB (after Cert.ReferenceIdeal.Cut.opsD0 (after Cert.ReferenceIdeal.Cut.opsA (launchContents m' c)))) (Proc.devRef .tc Cert.ReferenceIdeal.main_v47) = Cert.KernelIdeal.Gen.W6 m ρ c (Proc.devRef .tc Cert.KernelIdeal.main_v47) := stretchB_v47 (Cert.KernelIdeal.Gen.W2 m ρ c) (after Cert.ReferenceIdeal.Cut.opsD0 (after Cert.ReferenceIdeal.Cut.opsA (launchContents m' c))) D1 D3 D4 Da3
  have B1 : (after Cert.ReferenceIdeal.Cut.opsB (after Cert.ReferenceIdeal.Cut.opsD0 (after Cert.ReferenceIdeal.Cut.opsA (launchContents m' c)))) (Proc.devRef .tc Cert.ReferenceIdeal.main_v1) = Cert.KernelIdeal.Gen.W6 m ρ c (Proc.devRef .tc Cert.KernelIdeal.main_v1) := rB1.trans (D1.trans kB1.symm)
  have B3 : (after Cert.ReferenceIdeal.Cut.opsB (after Cert.ReferenceIdeal.Cut.opsD0 (after Cert.ReferenceIdeal.Cut.opsA (launchContents m' c)))) (Proc.devRef .tc Cert.ReferenceIdeal.main_v3) = Cert.KernelIdeal.Gen.W6 m ρ c (Proc.devRef .tc Cert.KernelIdeal.main_v3) := rB3.trans (D3.trans kB3.symm)
  have Ba4 : (after Cert.ReferenceIdeal.Cut.opsB (after Cert.ReferenceIdeal.Cut.opsD0 (after Cert.ReferenceIdeal.Cut.opsA (launchContents m' c)))) (Proc.devRef .tc Cert.ReferenceIdeal.main_arg4) = Cert.KernelIdeal.Gen.W6 m ρ c (Proc.devRef .tc Cert.KernelIdeal.main_arg4) := rBa4.trans (Da4.trans kBa4.symm)
  have Ba5 : (after Cert.ReferenceIdeal.Cut.opsB (after Cert.ReferenceIdeal.Cut.opsD0 (after Cert.ReferenceIdeal.Cut.opsA (launchContents m' c)))) (Proc.devRef .tc Cert.ReferenceIdeal.main_arg5) = Cert.KernelIdeal.Gen.W6 m ρ c (Proc.devRef .tc Cert.KernelIdeal.main_arg5) := rBa5.trans (Da5.trans kBa5.symm)
  -- (4) the second product
  obtain ⟨rE48, rE1, rE3, rEa5⟩ := refD1 (F := Ideal) (after Cert.ReferenceIdeal.Cut.opsB (after Cert.ReferenceIdeal.Cut.opsD0 (after Cert.ReferenceIdeal.Cut.opsA (launchContents m' c))))
  obtain ⟨kE1, kE3, kEa5⟩ := W7_pass m ρ c
  have E48 : (after Cert.ReferenceIdeal.Cut.opsD1 (after Cert.ReferenceIdeal.Cut.opsB (after Cert.ReferenceIdeal.Cut.opsD0 (after Cert.ReferenceIdeal.Cut.opsA (launchContents m' c))))) (Proc.devRef .tc Cert.ReferenceIdeal.main_v48) = Cert.KernelIdeal.Gen.W7 m ρ c (Proc.devRef .tc Cert.KernelIdeal.main_v48) := by
    rw [rE48, W7_v48 m ρ c, B47, Ba4]
    exact dotGeneral_eq_prod Cert.ReferenceIdeal.Facts₀.dot_S100000x16_S16x7_S100000x7_1_0_0_1_n_n_wf _ _
  have E1 : (after Cert.ReferenceIdeal.Cut.opsD1 (after Cert.ReferenceIdeal.Cut.opsB (after Cert.ReferenceIdeal.Cut.opsD0 (after Cert.ReferenceIdeal.Cut.opsA (launchContents m' c))))) (Proc.devRef .tc Cert.ReferenceIdeal.main_v1) = Cert.KernelIdeal.Gen.W7 m ρ c (Proc.devRef .tc Cert.KernelIdeal.main_v1) := rE1.trans (B1.trans kE1.symm)
  have E3 : (after Cert.ReferenceIdeal.Cut.opsD1 (after Cert.ReferenceIdeal.Cut.opsB (after Cert.ReferenceIdeal.Cut.opsD0 (after Cert.ReferenceIdeal.Cut.opsA (launchContents m' c))))) (Proc.devRef .tc Cert.ReferenceIdeal.main_v3) = Cert.KernelIdeal.Gen.W7 m ρ c (Proc.devRef .tc Cert.KernelIdeal.main_v3) := rE3.trans (B3.trans kE3.symm)
  have Ea5 : (after Cert.ReferenceIdeal.Cut.opsD1 (after Cert.ReferenceIdeal.Cut.opsB (after Cert.ReferenceIdeal.Cut.opsD0 (after Cert.ReferenceIdeal.Cut.opsA (launchContents m' c))))) (Proc.devRef .tc Cert.ReferenceIdeal.main_arg5) = Cert.KernelIdeal.Gen.W7 m ρ c (Proc.devRef .tc Cert.KernelIdeal.main_arg5) := rEa5.trans (Ba5.trans kEa5.symm)
  -- (5) the second aggregation and bias
  rw [Cert.ReferenceIdeal.Cut.after_cut]
  exact stretchC_v90 (Cert.KernelIdeal.Gen.W7 m ρ c) (after Cert.ReferenceIdeal.Cut.opsD1 (after Cert.ReferenceIdeal.Cut.opsB (after Cert.ReferenceIdeal.Cut.opsD0 (after Cert.ReferenceIdeal.Cut.opsA (launchContents m' c))))) E1 E3 E48 Ea5

end Cert.Bridge

end
-- ==== Proof.lean ====
/-
  A two-layer graph convolution, the kernel's program against the reference's.

  Both programs compute out = D^(-1/2) (A + I) D^(-1/2) (h W) + b twice, with a clamp at zero in between. They differ in
  one thing only: where the reference multiplies h by W with a dot_general, the kernel's program launches a Pallas kernel
  that walks the 100000 rows of h in 20 tiles of 5000 rows and multiplies each tile by W on the matrix unit into a zero
  accumulator. Everything else — taking the edge list apart, the self-loops, the degrees, their inverse square roots, the
  gathers, the scaling, the scatter-adds, the biases, the clamp — is the same host operations in both.

  Over the extended reals a tile of a product is the product of the tile, the tiles cover the rows, and both products are
  the same sum over the contracted coordinate (Proof/Tiles.lean, Proof/LibRowProduct.lean). So after each launch the
  kernel's program holds in its product buffer what the reference holds after its dot_general, and the shared host
  operations, read as one function of the values they start from and never opened, carry that agreement to the result
  (Proof/StretchA.lean, StretchB.lean, StretchC.lean, Bridge.lean). No entry needs to be finite for this and no index in
  range, so the precondition is not opened.

  The kernel's programs run without a fault and leave their arguments alone by their generated frames; the reference,
  which has no kernel, by its run with the result dropped. The idealized kernel is the kernel's own text read over the
  extended reals: the ideal pass rewrote nothing, so there is nothing to preserve.
-/
import proofs.«101474_j80625126080586_1_alg».proof.Defs
import proofs.«101474_j80625126080586_1_alg».proof.Proof.Gen.Kernel
import proofs.«101474_j80625126080586_1_alg».proof.Proof.Gen.Kernel.Skeleton
import proofs.«101474_j80625126080586_1_alg».proof.Proof.Gen.Kernel.Launch
import proofs.«101474_j80625126080586_1_alg».proof.Proof.Gen.Kernel.Points
import proofs.«101474_j80625126080586_1_alg».proof.Proof.Gen.Kernel.Frame
import proofs.«101474_j80625126080586_1_alg».proof.Proof.Gen.KernelIdeal
import proofs.«101474_j80625126080586_1_alg».proof.Proof.Gen.KernelIdeal.Skeleton
import proofs.«101474_j80625126080586_1_alg».proof.Proof.Gen.KernelIdeal.Launch
import proofs.«101474_j80625126080586_1_alg».proof.Proof.Gen.KernelIdeal.Points
import proofs.«101474_j80625126080586_1_alg».proof.Proof.Gen.KernelIdeal.Frame
import proofs.«101474_j80625126080586_1_alg».proof.Proof.Gen.ReferenceIdeal
import proofs.«101474_j80625126080586_1_alg».proof.Proof.Gen.Pre_finite_inputs
import proofs.«101474_j80625126080586_1_alg».proof.Proof.ReferenceRun
import proofs.«101474_j80625126080586_1_alg».proof.Proof.RefResult
import proofs.«101474_j80625126080586_1_alg».proof.Proof.KernelRun
import proofs.«101474_j80625126080586_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result: what the kernel's program's result
    buffer holds at the end of its run. -/
theorem algebraic : Cert.algebraic_KernelIdeal_ReferenceIdeal := by
  intro m ρ m' ρ' _ hag
  refine ⟨fun c => Cert.KernelIdeal.Gen.W10 m ρ c (Proc.devRef .tc Cert.KernelIdeal.main_v90),
    Cert.KernelIdeal.GenP.run_named m ρ, ?_⟩
  refine (θ_run Cert.ReferenceIdeal.defs _ _).mono (fun r h c => ⟨(h c).1.trans ?_, (h c).2⟩)
    (Cert.ReferenceIdeal.ValueP.run (F := Ideal) m' ρ')
  exact (Cert.ReferenceIdeal.Result.res_eq_after m' c).trans (Cert.Bridge.result_eq m ρ m' hag c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
